-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S64x256 : Shape := ⟨2, ![64, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : IVec S262144 32) (main_arg2 : FVec F S64x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  main_v12
-- ==== Kernel.lean ====
abbrev S262144x256 : Shape := ⟨2, ![262144, 256]⟩
abbrev S262144 : Shape := ⟨1, ![262144]⟩
abbrev S64x256 : Shape := ⟨2, ![64, 256]⟩
abbrev S262144x1 : Shape := ⟨2, ![262144, 1]⟩
abbrev S_ : Shape := ⟨0, ![]⟩
abbrev S64 : Shape := ⟨1, ![64]⟩
abbrev S1x64 : Shape := ⟨2, ![1, 64]⟩
abbrev S2x8x128 : Shape := ⟨3, ![2, 8, 128]⟩
abbrev S8192x256 : Shape := ⟨2, ![8192, 256]⟩
abbrev S8192x1 : Shape := ⟨2, ![8192, 1]⟩
abbrev S1x8x128 : Shape := ⟨3, ![1, 8, 128]⟩
abbrev S1x1 : Shape := ⟨2, ![1, 1]⟩
abbrev S8192x64 : Shape := ⟨2, ![8192, 64]⟩
abbrev S8192 : Shape := ⟨1, ![8192]⟩
abbrev S1x8192x1 : Shape := ⟨3, ![1, 8192, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 20
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S64x256, .f32⟩
  | .hbm, ⟨3, _⟩ => ⟨S262144x1, .i32⟩
  | .hbm, ⟨4, _⟩ => ⟨S64x256, .bf16⟩
  | .hbm, ⟨5, _⟩ => ⟨S64x256, .f32⟩
  | .hbm, ⟨6, _⟩ => ⟨S64x256, .f32⟩
  | .hbm, ⟨7, _⟩ => ⟨S64x256, .bf16⟩
  | .hbm, ⟨8, _⟩ => ⟨S64x256, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S2x8x128, .f32⟩
  | .hbm, ⟨14, _⟩ => ⟨S2x1x1, .f32⟩
  | .hbm, ⟨15, _⟩ => ⟨S2, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S8192x1, .i32⟩
  | .local _ .vmem, ⟨3, _⟩ => ⟨S8192x1, .i32⟩
  | .local _ .vmem, ⟨4, _⟩ => ⟨S64x256, .bf16⟩
  | .local _ .vmem, ⟨5, _⟩ => ⟨S64x256, .bf16⟩
  | .local _ .vmem, ⟨6, _⟩ => ⟨S1x64, .f32⟩
  | .local _ .vmem, ⟨7, _⟩ => ⟨S1x8x128, .f32⟩
  | .local _ .vmem, ⟨8, _⟩ => ⟨S1x8x128, .f32⟩
  | .local _ .vmem, ⟨9, _⟩ => ⟨S1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_25 : BitVec 32 := 0#32
  let v70 : BitVec 1 := Scalar.cmpi .ne v69 c0_i32_25
  v70

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S262144_S262144x1 : S262144.ShapeCasts S262144x1
  bitsLt_bf16_f32 : FTy.bits .bf16 < FTy.bits .f32
  reducesTo_S64x256_S64_d1 : S64x256.ReducesTo [1] S64
  h_S_ : 0 < S_.numel
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x256_S8192x256_0_0 : ∀ a, (![0, 0] : Fin 2 → Nat) a + S8192x256.size a ≤ S8192x256.size a
  h_S8192x256 : 0 < S8192x256.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S8192x64_d1_w32 : S8192x64.Iotas .tc 32 [1]
  broadcasts_S8192x1_S8192x64 : S8192x1.Broadcasts S8192x64
  natLt_1_32 : 1 < 32
  reduces_S8192x256_S8192 : S8192x256.Reduces [1] S8192
  shapeCasts_S8192_S8192x1 : S8192.ShapeCasts S8192x1
  broadcasts_S1x64_S8192x64 : S1x64.Broadcasts S8192x64
  reduces_S8192x64_S8192 : S8192x64.Reduces [1] S8192
  iota_S8192x1_d0_w32 : S8192x1.Iotas .tc 32 [0]
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .i32 = 32 ∨ (Rect.block (s := S262144x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .bf16 = 32 ∨ (Rect.block (s := S64x256) S64x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S262144x256 : Shape := ⟨2, ![262144, 256]⟩
abbrev S262144 : Shape := ⟨1, ![262144]⟩
abbrev S64x256 : Shape := ⟨2, ![64, 256]⟩
abbrev S_ : Shape := ⟨0, ![]⟩
abbrev S262144x1 : Shape := ⟨2, ![262144, 1]⟩

abbrev nBuf : Space → Nat
  | .hbm => 43
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S64x256, .f32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x256, .f32⟩
  | .hbm, ⟨12, _⟩ => ⟨S262144x256, .f32⟩
  | .hbm, ⟨13, _⟩ => ⟨S_, .f32⟩
  | .hbm, ⟨14, _⟩ => ⟨S262144, .f32⟩
  | .hbm, ⟨15, _⟩ => ⟨S262144x256, .f32⟩
  | .hbm, ⟨16, _⟩ => ⟨S_, .f32⟩
  | .hbm, ⟨17, _⟩ => ⟨S262144, .f32⟩
  | .hbm, ⟨18, _⟩ => ⟨S262144, .f32⟩
  | .hbm, ⟨19, _⟩ => ⟨S262144x256, .f32⟩
  | .hbm, ⟨20, _⟩ => ⟨S_, .f32⟩
  | .hbm, ⟨21, _⟩ => ⟨S262144, .f32⟩
  | .hbm, ⟨22, _⟩ => ⟨S262144, .f32⟩
  | .hbm, ⟨23, _⟩ => ⟨S262144, .f32⟩
  | .hbm, ⟨24, _⟩ => ⟨S_, .f32⟩
  | .hbm, ⟨25, _⟩ => ⟨S262144, .f32⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S262144, .f32⟩
  | .hbm, ⟨35, _⟩ => ⟨S262144, .f32⟩
  | .hbm, ⟨36, _⟩ => ⟨S_, .f32⟩
  | .hbm, ⟨37, _⟩ => ⟨S262144, .f32⟩
  | .hbm, ⟨38, _⟩ => ⟨S262144, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S262144_d1 : S262144x256.ReducesTo [1] S262144
  h_S_ : 0 < S_.numel
  reducesTo_S262144_S_d0 : S262144.ReducesTo [0] S_
  gather_S64x256_S262144x1_S262144x256_1_0_n_n_0_1_1256_wf : GatherDims.WF S64x256 S262144x1 S262144x256 [1] [0] [] [0] [] 1 ![1, 256]

variable [Facts₀]

def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf

class Facts : Prop extends Facts₀ where

variable [Facts]
-- ==== Proof.Spec.lean ====
/-
  The mathematics both programs compute, over the extended reals: for each of the 262144 rows the cosine distance
  between the row and the row of `centers` its label selects, clamped into [1e-12, 1e12], and the mean of these.
  The kernel adds the rows up tile by tile (8192 rows a tile, sixteen tiles a core, two cores); the reference adds
  them in one sum. Addition of extended reals is commutative and associative, so the two agree.
-/
import Idealize.ShloMosaic.PureOps.Ideal
import Idealize.ShloMosaic.PureOps.Ideal.Laws
import Idealize.ShloMosaic.Lib.ValueIdx

noncomputable section

open scoped BigOperators

namespace Cert.InnerCos

open Idealize.ShloMosaic Idealize.ShloMosaic.ValueIdx

/-- The shapes of the three arguments. -/
abbrev XS : Shape := ⟨2, ![262144, 256]⟩
abbrev LS : Shape := ⟨1, ![262144]⟩
abbrev CS : Shape := ⟨2, ![64, 256]⟩

/-- The norm floor 1e-8, the literal one, the clamp's two ends 1e-12 and 1e12, and the row count, each as the
    exact value of its f32 word (the same word in both programs, so never evaluated). -/
def eps : EReal := Ideal.ofBits .f32 0x322BCC77#32
def one : EReal := Ideal.ofBits .f32 0x3F800000#32
def lo : EReal := Ideal.ofBits .f32 0x2B8CBCCC#32
def hi : EReal := Ideal.ofBits .f32 0x5368D4A5#32
def cnt : EReal := Ideal.ofBits .f32 0x48800000#32

/-- The clamped cosine distance of a row `x` to a row `c` whose norm is given as `nc`. -/
def rowLossK (x c : Fin 256 → EReal) (nc : EReal) : EReal :=
  min hi (max lo (one - Ideal.div (∑ d, x d * c d) (max (Ideal.sqrt (∑ d, x d * x d) * nc) eps)))

/-- The clamped cosine distance of a row `x` to a row `c`. -/
def rowLoss (x c : Fin 256 → EReal) : EReal := rowLossK x c (Ideal.sqrt (∑ d, c d * c d))

/-- The row of `centers` a label selects: the label read as a signed integer and clamped into [0, 63]
    (for a label in range, the label itself). -/
def labelRow (l : BitVec 32) : Fin 64 := ⟨min l.toInt.toNat 63, by omega⟩

/-- Row `n`'s clamped cosine distance to its label's center. -/
def loss (X : XS.Idx → EReal) (L : LS.Idx → BitVec 32) (C : CS.Idx → EReal) (n : Fin 262144) : EReal :=
  rowLoss (fun d => X (ix2 n d)) (fun d => C (ix2 (labelRow (L (ix1 n))) d))

/-- The same over the naturals (zero past the last row, which no tile reaches). -/
def lossN (X : XS.Idx → EReal) (L : LS.Idx → BitVec 32) (C : CS.Idx → EReal) (n : ℕ) : EReal :=
  if h : n < 262144 then loss X L C ⟨n, h⟩ else 0

/-- Tile `t`'s sum: rows `8192 t` to `8192 t + 8191`. -/
def tile (X : XS.Idx → EReal) (L : LS.Idx → BitVec 32) (C : CS.Idx → EReal) (t : ℕ) : EReal :=
  ∑ r : Fin 8192, lossN X L C (t * 8192 + r.val)

/-- Core `c`'s sum: tiles `16 c` to `16 c + 15`. -/
def coreSum (X : XS.Idx → EReal) (L : LS.Idx → BitVec 32) (C : CS.Idx → EReal) (c : ℕ) : EReal :=
  ∑ j : Fin 16, tile X L C (c * 16 + j.val)

/-- What a core's accumulator holds after grid point `n`: the tiles of its core up to `n`. -/
def runSum (X : XS.Idx → EReal) (L : LS.Idx → BitVec 32) (C : CS.Idx → EReal) (n : ℕ) : EReal :=
  ∑ j ∈ Finset.range (n % 16 + 1), tile X L C (n / 16 * 16 + j)

/-- The mean as the kernel forms it: the two cores' sums added from zero, divided by the row count. -/
def meanK (X : XS.Idx → EReal) (L : LS.Idx → BitVec 32) (C : CS.Idx → EReal) : EReal :=
  Ideal.div (0 + (coreSum X L C 0 + coreSum X L C 1)) cnt

/-- The mean as the reference forms it: all rows added from zero, divided by the row count. -/
def meanR (X : XS.Idx → EReal) (L : LS.Idx → BitVec 32) (C : CS.Idx → EReal) : EReal :=
  Ideal.div (0 + ∑ n : Fin 262144, loss X L C n) cnt

variable (X : XS.Idx → EReal) (L : LS.Idx → BitVec 32) (C : CS.Idx → EReal)

/-- At the first point of a core's row the accumulator is that point's tile. -/
theorem runSum_first (n : ℕ) (h : n % 16 = 0) : runSum X L C n = tile X L C n := by
  unfold runSum
  rw [h, Finset.sum_range_one, Nat.add_zero]
  congr 1
  omega

/-- At a later point it is the point before's accumulator plus this point's tile. -/
theorem runSum_step (n : ℕ) (h : n % 16 ≠ 0) : runSum X L C n = runSum X L C (n - 1) + tile X L C n := by
  unfold runSum
  have h1 : (n - 1) % 16 + 1 = n % 16 := by omega
  have h2 : (n - 1) / 16 = n / 16 := by omega
  rw [Finset.sum_range_succ, h1, h2]
  congr 2
  omega

/-- At a core's last point it is the core's sum. -/
theorem runSum_last (n : ℕ) (h : n % 16 = 15) : runSum X L C n = coreSum X L C (n / 16) := by
  unfold runSum coreSum
  rw [h, Finset.sum_range]

/-- A sum over `a * b` consecutive naturals is the sum over `a` runs of `b`. -/
theorem sum_fin_mul {M : Type*} [AddCommMonoid M] (a b : ℕ) (f : ℕ → M) :
    ∑ k : Fin (a * b), f k.val = ∑ i : Fin a, ∑ j : Fin b, f (i.val * b + j.val) := by
  rw [← Equiv.sum_comp finProdFinEquiv (fun k : Fin (a * b) => f k.val), Fintype.sum_prod_type]
  refine Finset.sum_congr rfl fun i _ => Finset.sum_congr rfl fun j _ => ?_
  congr 1
  show j.val + b * i.val = i.val * b + j.val
  rw [Nat.add_comm, Nat.mul_comm]

/-- All rows, added tile by tile and core by core, are all rows. -/
theorem sum_cores : coreSum X L C 0 + coreSum X L C 1 = ∑ n : Fin 262144, loss X L C n := by
  have e : ∀ n : Fin 262144, loss X L C n = lossN X L C n.val := fun n => by
    unfold lossN; rw [dif_pos n.isLt]
  have h2 : coreSum X L C 0 + coreSum X L C 1 = ∑ c : Fin 2, ∑ j : Fin 16, tile X L C (c.val * 16 + j.val) :=
    (Fin.sum_univ_two (fun c : Fin 2 => ∑ j : Fin 16, tile X L C (c.val * 16 + j.val))).symm
  have h32 : (∑ c : Fin 2, ∑ j : Fin 16, tile X L C (c.val * 16 + j.val)) = ∑ t : Fin (2 * 16), tile X L C t.val :=
    (sum_fin_mul 2 16 (tile X L C)).symm
  have hrows : (∑ t : Fin 32, ∑ r : Fin 8192, lossN X L C (t.val * 8192 + r.val)) = ∑ n : Fin (32 * 8192), lossN X L C n.val :=
    (sum_fin_mul 32 8192 (lossN X L C)).symm
  rw [h2, h32]
  refine Eq.trans ?_ (Finset.sum_congr rfl fun n _ => (e n).symm)
  exact hrows

/-- So the two means are one number. -/
theorem meanK_eq_meanR : meanK X L C = meanR X L C := by
  unfold meanK meanR
  rw [sum_cores]

end Cert.InnerCos

end
-- ==== Proof.PreFacts.lean ====
/-
  What the precondition says, decoded: every entry of `centers` is a real number, and every label is non-negative as
  a signed integer.
-/
import proofs.«402710_j13091060318226_2_alg».proof.Pre_finite_inputs
import proofs.«402710_j13091060318226_2_alg».proof.Proof.Gen.Pre_finite_inputs
import proofs.«402710_j13091060318226_2_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

open Idealize.ShloMosaic Idealize.ShloMosaic.ValueIdx

namespace Cert.Pre_finite_inputs.PreFacts

open Cert.Pre_finite_inputs Cert.InnerCos

/-- The scalar shape has exactly one index. -/
instance : Subsingleton S_.Idx := ⟨fun a b => funext fun d => d.elim0⟩

/-- The f32 word 0x7F800000 denotes +∞. -/
theorem inf_eq_top : Ideal.ofBits .f32 0x7F800000#32 = (⊤ : EReal) := by simp [Ideal.ofBits, Ideal.ieee]

/-- A strict-less comparison word that is one says the comparison holds. -/
theorem lt_of_cmp_olt (a b : EReal) (h : Ideal.cmp .olt a b = 1#1) : a < b :=
  of_decide_eq_true ((StableHlo.Predicate.ofBool_eq_one_iff _).1 h)

/-- An extended real whose absolute value `max c (-c)` is below +∞ is a real number: at either infinity the
    absolute value is +∞ itself. -/
theorem real_of_abs_lt_top (c : EReal) (hc : max c (-c) < ⊤) : ∃ x : ℝ, c = (x : EReal) := by
  induction c using EReal.rec with
  | bot => rw [EReal.neg_bot, max_bot_left] at hc; exact absurd hc (lt_irrefl _)
  | coe x => exact ⟨x, rfl⟩
  | top => rw [EReal.neg_top, max_bot_right] at hc; exact absurd hc (lt_irrefl _)

/-- Under the precondition every entry of `centers` is a real number. -/
theorem centers_real (X : XS.Idx → EReal) (L : LS.Idx → BitVec 32) (C : CS.Idx → EReal)
    (h : Cert.Pre_finite_inputs.fn (F := Ideal) X L C = fun _ => 1#1) (i : CS.Idx) : ∃ x : ℝ, C i = (x : EReal) := by
  -- the predicate at its one index is a conjunction of three reductions by `and`; the second is over `centers`
  have h0 := congrFun h ValueIdx.ix0
  dsimp only [fn] at h0
  simp only [andi, IntOp.andi_eq_one] at h0
  obtain ⟨⟨-, hC⟩, -⟩ := h0
  -- a reduction by `and` that is one had a one at every element: |C i| < +∞
  have hc := Host.reduce_andi_all _ _ _ _ _ hC i
  simp only [cmpf, Host.absf, broadcastInDim, constant, Ideal.hostAbsf_def, Ideal.cmpf_def, Ideal.absf_def,
    Ideal.ofBits_def, inf_eq_top] at hc
  exact real_of_abs_lt_top (C i) (lt_of_cmp_olt _ _ hc)

/-- Under the precondition every label is non-negative as a signed integer. -/
theorem labels_nonneg (X : XS.Idx → EReal) (L : LS.Idx → BitVec 32) (C : CS.Idx → EReal)
    (h : Cert.Pre_finite_inputs.fn (F := Ideal) X L C = fun _ => 1#1) (i : LS.Idx) : 0 ≤ (L i).toInt := by
  -- the third conjunct is the reduction of `labels ≥ 0`, signed
  have h0 := congrFun h ValueIdx.ix0
  dsimp only [fn] at h0
  simp only [andi, IntOp.andi_eq_one] at h0
  obtain ⟨-, hL0⟩ := h0
  have h1 := Host.reduce_andi_all _ _ _ _ _ hL0 i
  simp only [cmpi, broadcastInDim, constantI] at h1
  rw [IntOp.cmpi_sge] at h1
  have z : (0#32 : BitVec 32).toInt = 0 := by decide
  rw [z] at h1
  exact h1

end Cert.Pre_finite_inputs.PreFacts

end
-- ==== Proof.RefValue.lean ====
/-
  The reference's value: what jnp's gather, the three row sums, the clamped cosine distance and the mean compute,
  read index by index over the extended reals. For non-negative labels the wrap of a negative index does nothing, and
  the gather clamps the label into [0, 63], so row `n` is paired with the center its clamped label names.
-/
import proofs.«402710_j13091060318226_2_alg».proof.Defs
import proofs.«402710_j13091060318226_2_alg».proof.Proof.Gen.ReferenceIdeal.Run
import proofs.«402710_j13091060318226_2_alg».proof.Proof.Gen.ReferenceIdeal.Read
import proofs.«402710_j13091060318226_2_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read Cert.InnerCos

/-- Operand axis 0 of the rows' gather (the collapsed axis): the start index read signed and clamped, no batching
    coordinate, no offset. -/
theorem gather_rows_axis0 (idx : IVec S262144x1 32) (n : Fin 262144) (d : Fin 256) :
    (gather_S64x256_S262144x1_S262144x256_1_0_n_n_0_1_1256.operandIdx (ix2 n d) idx (0 : Fin S64x256.rank)).val
      = min (idx (ix2 n (0 : Fin 1))).toInt.toNat 63 := by
  show gather_S64x256_S262144x1_S262144x256_1_0_n_n_0_1_1256.start (ix2 n d) idx (0 : Fin S64x256.rank)
      + gather_S64x256_S262144x1_S262144x256_1_0_n_n_0_1_1256.batchCoord (ix2 n d) (0 : Fin S64x256.rank)
      + gather_S64x256_S262144x1_S262144x256_1_0_n_n_0_1_1256.offCoord (ix2 n d) (0 : Fin S64x256.rank) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S64x256.rank) ∈ gather_S64x256_S262144x1_S262144x256_1_0_n_n_0_1_1256.startIndexMap from List.mem_singleton.mpr rfl)]
  have hsi : gather_S64x256_S262144x1_S262144x256_1_0_n_n_0_1_1256.siIdx (ix2 n d)
      ⟨List.idxOf (0 : Fin S64x256.rank) gather_S64x256_S262144x1_S262144x256_1_0_n_n_0_1_1256.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- Operand axis 1 (the offset axis): start 0, no batching coordinate, the result's column. -/
theorem gather_rows_axis1 (idx : IVec S262144x1 32) (n : Fin 262144) (d : Fin 256) :
    (gather_S64x256_S262144x1_S262144x256_1_0_n_n_0_1_1256.operandIdx (ix2 n d) idx (1 : Fin S64x256.rank)).val = d.val := by
  show gather_S64x256_S262144x1_S262144x256_1_0_n_n_0_1_1256.start (ix2 n d) idx (1 : Fin S64x256.rank)
      + gather_S64x256_S262144x1_S262144x256_1_0_n_n_0_1_1256.batchCoord (ix2 n d) (1 : Fin S64x256.rank)
      + gather_S64x256_S262144x1_S262144x256_1_0_n_n_0_1_1256.offCoord (ix2 n d) (1 : Fin S64x256.rank) = _
  rw [GatherDims.batchCoord_eq_zero _ _ _ List.not_mem_nil]
  unfold GatherDims.start
  rw [dif_neg (show ¬ (1 : Fin S64x256.rank) ∈ gather_S64x256_S262144x1_S262144x256_1_0_n_n_0_1_1256.startIndexMap from by decide)]
  unfold GatherDims.offCoord
  rw [dif_pos (show (1 : Fin S64x256.rank) ∈ gather_S64x256_S262144x1_S262144x256_1_0_n_n_0_1_1256.sKept from by decide)]
  simp only [Nat.zero_add, Nat.add_zero]
  rfl

/-- The gather of whole rows of a [64, 256] table at a column of start indices, read at an element: row `n` of the
    result is the table's row at the start index read signed and clamped into [0, 63]. -/
theorem gather_rows_apply (C : FVec Ideal S64x256 .f32) (idx : IVec S262144x1 32) (n : Fin 262144) (d : Fin 256) :
    Host.gather gather_S64x256_S262144x1_S262144x256_1_0_n_n_0_1_1256 C idx (ix2 n d)
      = C (ix2 (labelRow (idx (ix2 n (0 : Fin 1)))) d) := by
  unfold Host.gather
  congr 1
  funext a
  refine Fin.ext ?_
  match a with
  | ⟨0, _⟩ => exact gather_rows_axis0 idx n d
  | ⟨1, _⟩ => exact gather_rows_axis1 idx n d

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A word that reads as a nonnegative integer is not below zero in the signed order. -/
theorem cmpi_slt_zero (l : BitVec 32) (h : 0 ≤ l.toInt) : IntOp.cmpi .slt l 0#32 = 0#1 := by
  have hs : l.slt 0#32 = false := by
    rw [BitVec.slt_eq_decide, BitVec.toInt_zero]
    exact decide_eq_false (by omega)
  show BitVec.ofBool (l.slt 0#32) = 0#1
  rw [hs]
  rfl

/-- The column of start indices at row `n`: a nonnegative label is not wrapped. -/
theorem v5_apply (L : LS.Idx → BitVec 32) (n : Fin 262144) (h : 0 ≤ (L (ix1 n)).toInt) :
    val_main_v5 (F := Ideal) L (ix2 n (0 : Fin 1)) = L (ix1 n) := by
  have hidx : idx_main_v5 (ix2 n (0 : Fin 1)) = ix1 n :=
    funext fun a => Fin.ext (by match a with | ⟨0, _⟩ => rfl)
  rw [val_main_v5_apply, hidx, val_main_v4_apply, val_main_v1_apply, val_main_v0_apply, val_main_c_apply,
    cmpi_slt_zero _ h, select_zero]

/-- The gathered table at row `n`, column `d`: the center the row's label names. -/
theorem v6_apply (L : LS.Idx → BitVec 32) (C : CS.Idx → EReal) (n : Fin 262144) (d : Fin 256)
    (h : 0 ≤ (L (ix1 n)).toInt) :
    val_main_v6 (F := Ideal) L C (ix2 n d) = C (ix2 (labelRow (L (ix1 n))) d) := by
  have hg := gather_rows_apply C (val_main_v5 (F := Ideal) L) n d
  rw [v5_apply L n h] at hg
  exact hg

/-- Row `n` of the reference's clamped distances is the row's clamped cosine distance to its label's center. -/
theorem row_eq (X : XS.Idx → EReal) (L : LS.Idx → BitVec 32) (C : CS.Idx → EReal) (n : Fin 262144)
    (h : 0 ≤ (L (ix1 n)).toInt) :
    val_main_v21 (F := Ideal) X L C (ix1 n) = loss X L C n := by
  have hix8 : ∀ k : Fin 256, idx_main_v8 (ix1 n) k = ix2 n k := fun k =>
    funext fun a => Fin.ext (by match a with | ⟨0, _⟩ => rfl | ⟨1, _⟩ => rfl)
  have hix10 : ∀ k : Fin 256, idx_main_v10 (ix1 n) k = ix2 n k := fun k =>
    funext fun a => Fin.ext (by match a with | ⟨0, _⟩ => rfl | ⟨1, _⟩ => rfl)
  have hix13 : ∀ k : Fin 256, idx_main_v13 (ix1 n) k = ix2 n k := fun k =>
    funext fun a => Fin.ext (by match a with | ⟨0, _⟩ => rfl | ⟨1, _⟩ => rfl)
  have h8 : val_main_v8 (F := Ideal) X L C (ix1 n)
      = ∑ k : Fin 256, X (ix2 n k) * C (ix2 (labelRow (L (ix1 n))) k) := by
    rw [val_main_v8_apply, val_main_cst_apply, Ideal.ofBits_def, Ideal.ofBits_zero_f32, zero_add]
    refine Finset.sum_congr rfl fun k _ => ?_
    rw [hix8 k, val_main_v7_apply, Ideal.mulf_def, v6_apply L C n k h]
  have h10 : val_main_v10 (F := Ideal) X (ix1 n) = ∑ k : Fin 256, X (ix2 n k) * X (ix2 n k) := by
    rw [val_main_v10_apply, val_main_cst_1_apply, Ideal.ofBits_def, Ideal.ofBits_zero_f32, zero_add]
    refine Finset.sum_congr rfl fun k _ => ?_
    rw [hix10 k, val_main_v9_apply, Ideal.mulf_def]
  have h13 : val_main_v13 (F := Ideal) L C (ix1 n)
      = ∑ k : Fin 256, C (ix2 (labelRow (L (ix1 n))) k) * C (ix2 (labelRow (L (ix1 n))) k) := by
    rw [val_main_v13_apply, val_main_cst_2_apply, Ideal.ofBits_def, Ideal.ofBits_zero_f32, zero_add]
    refine Finset.sum_congr rfl fun k _ => ?_
    rw [hix13 k, val_main_v12_apply, Ideal.mulf_def, v6_apply L C n k h]
  rw [val_main_v21_apply, val_main_call0_v4_apply, val_main_call0_v3_apply, val_main_cst_6_apply,
    val_main_call0_v2_apply, val_main_call0_v1_apply, val_main_call0_v0_apply, val_main_cst_5_apply,
    val_main_v20_apply, val_main_v19_apply, val_main_cst_4_apply, val_main_v18_apply, h8,
    val_main_v17_apply, val_main_v15_apply, val_main_v11_apply, h10, val_main_v14_apply, h13,
    val_main_v16_apply, val_main_cst_3_apply]
  simp only [Ideal.ofBits_def, Ideal.minimumf_def, Ideal.maximumf_def, Ideal.subf_def, Ideal.hostDivf_def,
    Ideal.mulf_def, Ideal.hostUnary_sqrt_def]
  unfold loss rowLoss rowLossK hi lo one eps
  rfl

/-- For non-negative labels the reference's result is the mean of the rows' clamped cosine distances. -/
theorem ref_eq (X : XS.Idx → EReal) (L : LS.Idx → BitVec 32) (C : CS.Idx → EReal)
    (hlab : ∀ i : LS.Idx, 0 ≤ (L i).toInt) :
    val_main_v23 (F := Ideal) X L C = fun _ => meanR X L C := by
  funext i
  have hsum : (∑ j : S262144.Idx, val_main_v21 (F := Ideal) X L C j) = ∑ n : Fin 262144, loss X L C n := by
    refine (sum_idx1 (n := 262144) _).trans ?_
    exact Finset.sum_congr rfl fun n _ => row_eq X L C n (hlab (ix1 n))
  rw [val_main_v23_apply, val_main_v22_apply, val_main_cst_8_apply, val_main_cst_7_apply, Ideal.hostDivf_def,
    Ideal.ofBits_def, Ideal.ofBits_def, Ideal.ofBits_zero_f32, hsum]
  unfold meanR cnt
  rfl

end Cert.ReferenceIdeal.RefValue

end
-- ==== Proof.Pieces.lean ====
/-
  What each control case of the kernel body leaves behind, read as values: the one-word accumulator after the body
  is the body's payload of the blocks it loaded (at a core's first tile over the zero it has just stored, later over
  what the tile before left), and at a core's last tile the output block is that accumulator broadcast.
-/
import proofs.«402710_j13091060318226_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The whole-block rectangles' zero offsets, of rank two and of rank three. -/
theorem hz2 : (![0, 0] : Fin 2 → Nat) = fun _ => 0 :=
  funext fun a => match a with | ⟨0, _⟩ => rfl | ⟨1, _⟩ => rfl
theorem hz3 : (![0, 0, 0] : Fin 3 → Nat) = fun _ => 0 :=
  funext fun a => match a with | ⟨0, _⟩ => rfl | ⟨1, _⟩ => rfl | ⟨2, _⟩ => rfl

/-- The accumulator after the body, as a function of the loaded blocks and of what the accumulator held. -/
abbrev accAfter (i : grid0.Coords) (x0 : Vec F S8192x256 .f32) (x1 : Vec F S8192x1 .i32) (x2 : Vec F S64x256 .bf16) (x3 : Vec F S64x256 .bf16) (x4 : Vec F S1x64 .f32) (acc : Vec F S1x1 .f32) : Vec F S1x1 .f32 :=
  k0_pay1 (BitVec.ofNat 32 (i 0).val) (BitVec.ofNat 32 (i 1).val) (k0_pay5 x0 x1 x2 x3) (k0_pay6 x0) (k0_pay7 x1 x4) acc

/-- First tile of a core: the accumulator is reset to zero, then the tile is added. -/
theorem sout_A (c : Dev nD) (i : grid0.Coords) (arg2 : Memref sig .tc .vmem S8192x256 .f32) (harg2 : arg2.IsWhole) (arg3 : Memref sig .tc .vmem S8192x1 .i32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x64 .f32) (harg6 : arg6.IsWhole) (arg7 : Memref sig .tc .vmem S1x8x128 .f32) (harg7 : arg7.IsWhole) (arg8 : Memref sig .tc .vmem S1x1 .f32) (harg8 : arg8.IsWhole) (hc0 : cond0_0 i) (hc1 : ¬cond0_1 i) (x0 : Vec F S8192x256 .f32) (x1 : Vec F S8192x1 .i32) (x2 : Vec F S64x256 .bf16) (x3 : Vec F S64x256 .bf16) (x4 : Vec F S1x64 .f32) :
    sout0_A_0 c i arg2 harg2 arg3 harg3 arg4 harg4 arg5 harg5 arg6 harg6 arg7 harg7 arg8 harg8 hc0 hc1 x0 x1 x2 x3 x4 = accAfter i x0 x1 x2 x3 x4 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread,
    View.ld_unit_zero (S := S8192x256) hz2, View.ld_unit_zero (S := S8192x1) hz2, View.ld_unit_zero (S := S64x256) hz2,
    View.ld_unit_zero (S := S1x64) hz2, View.ld_unit_zero (S := S1x1) hz2]

/-- A middle tile: the tile is added to what the tile before left. -/
theorem sout_B (c : Dev nD) (i : grid0.Coords) (arg2 : Memref sig .tc .vmem S8192x256 .f32) (harg2 : arg2.IsWhole) (arg3 : Memref sig .tc .vmem S8192x1 .i32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x64 .f32) (harg6 : arg6.IsWhole) (arg7 : Memref sig .tc .vmem S1x8x128 .f32) (harg7 : arg7.IsWhole) (arg8 : Memref sig .tc .vmem S1x1 .f32) (harg8 : arg8.IsWhole) (hc0 : ¬cond0_0 i) (hc1 : ¬cond0_1 i) (x0 : Vec F S8192x256 .f32) (x1 : Vec F S8192x1 .i32) (x2 : Vec F S64x256 .bf16) (x3 : Vec F S64x256 .bf16) (x4 : Vec F S1x64 .f32) (xs0 : Vec F S1x1 .f32) :
    sout0_B_0 c i arg2 harg2 arg3 harg3 arg4 harg4 arg5 harg5 arg6 harg6 arg7 harg7 arg8 harg8 hc0 hc1 x0 x1 x2 x3 x4 xs0 = accAfter i x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S1x1) hz2]
  simp only [View.readAt_eq_ld, harg2.read_unread, harg3.read_unread, harg4.read_unread, harg5.read_unread, harg6.read_unread, harg8.read_unread,
    View.ld_unit_zero (S := S8192x256) hz2, View.ld_unit_zero (S := S8192x1) hz2, View.ld_unit_zero (S := S64x256) hz2,
    View.ld_unit_zero (S := S1x64) hz2, View.ld_unit_zero (S := S1x1) hz2]

/-- Last tile of a core: the same for the accumulator, -/
theorem sout_C (c : Dev nD) (i : grid0.Coords) (arg2 : Memref sig .tc .vmem S8192x256 .f32) (harg2 : arg2.IsWhole) (arg3 : Memref sig .tc .vmem S8192x1 .i32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x64 .f32) (harg6 : arg6.IsWhole) (arg7 : Memref sig .tc .vmem S1x8x128 .f32) (harg7 : arg7.IsWhole) (arg8 : Memref sig .tc .vmem S1x1 .f32) (harg8 : arg8.IsWhole) (hc0 : ¬cond0_0 i) (hc1 : cond0_1 i) (x0 : Vec F S8192x256 .f32) (x1 : Vec F S8192x1 .i32) (x2 : Vec F S64x256 .bf16) (x3 : Vec F S64x256 .bf16) (x4 : Vec F S1x64 .f32) (xs0 : Vec F S1x1 .f32) :
    sout0_C_0 c i arg2 harg2 arg3 harg3 arg4 harg4 arg5 harg5 arg6 harg6 arg7 harg7 arg8 harg8 hc0 hc1 x0 x1 x2 x3 x4 xs0 = accAfter i x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1x1) hz2]
  simp only [View.readAt_eq_ld, harg2.read_unread, harg3.read_unread, harg4.read_unread, harg5.read_unread, harg6.read_unread, harg8.read_unread,
    View.ld_unit_zero (S := S8192x256) hz2, View.ld_unit_zero (S := S8192x1) hz2, View.ld_unit_zero (S := S64x256) hz2,
    View.ld_unit_zero (S := S1x64) hz2, View.ld_unit_zero (S := S1x1) hz2]

/-- and the output block is the new accumulator's one word in every place. -/
theorem out_C (c : Dev nD) (i : grid0.Coords) (arg2 : Memref sig .tc .vmem S8192x256 .f32) (harg2 : arg2.IsWhole) (arg3 : Memref sig .tc .vmem S8192x1 .i32) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x64 .f32) (harg6 : arg6.IsWhole) (arg7 : Memref sig .tc .vmem S1x8x128 .f32) (harg7 : arg7.IsWhole) (arg8 : Memref sig .tc .vmem S1x1 .f32) (harg8 : arg8.IsWhole) (hc0 : ¬cond0_0 i) (hc1 : cond0_1 i) (x0 : Vec F S8192x256 .f32) (x1 : Vec F S8192x1 .i32) (x2 : Vec F S64x256 .bf16) (x3 : Vec F S64x256 .bf16) (x4 : Vec F S1x64 .f32) (xs0 : Vec F S1x1 .f32) :
    out0_C_5 c i arg2 harg2 arg3 harg3 arg4 harg4 arg5 harg5 arg6 harg6 arg7 harg7 arg8 harg8 hc0 hc1 x0 x1 x2 x3 x4 xs0 = k0_pay2 (accAfter i x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1x8x128) hz3, View.readCov_unit_zero (S := S1x1) _ hz2]
  simp only [View.readAt_eq_ld, harg2.read_unread, harg3.read_unread, harg4.read_unread, harg5.read_unread, harg6.read_unread, harg8.read_unread,
    View.ld_unit_zero (S := S8192x256) hz2, View.ld_unit_zero (S := S8192x1) hz2, View.ld_unit_zero (S := S64x256) hz2,
    View.ld_unit_zero (S := S1x64) hz2, View.ld_unit_zero (S := S1x1) hz2]

end Cert.KernelIdeal.Pieces

end
-- ==== Proof.PayRow.lean ====
/-
  The body's three per-row quantities read at a row, over the extended reals: the dot product of the row with the
  center its label selects (the one-hot matrix product picks out one row of each of the two center tables and adds
  them), the row's norm, and the selected center's precomputed norm. A non-negative label is clamped to at most 63 by the kernel's
  `min`, which is the row `labelRow` names.
-/
import proofs.«402710_j13091060318226_2_alg».proof.Proof.Gen.KernelIdeal.Skeleton
import proofs.«402710_j13091060318226_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.PayRow

open Cert.KernelIdeal Cert.KernelIdeal.Gen Cert.InnerCos

/-- The labels of a block are non-negative as signed integers. -/
def LabelsOk (x1 : Vec Ideal S8192x1 .i32) : Prop :=
  ∀ r : Fin 8192, 0 ≤ (x1 (ix2 r (0 : Fin 1))).toInt

/-! ## Words: a non-negative label, its clamp, and the column it names -/

/-- A non-negative label clamped into [0, 63], read unsigned, is the number of the row it selects. -/
private theorem clamp_toNat (l : BitVec 32) (h0 : 0 ≤ l.toInt) :
    (IntOp.minsi 63#32 (IntOp.maxsi 0#32 l)).toNat = (labelRow l).val := by
  have e0 : (0#32 : BitVec 32).toInt = 0 := by decide
  have e63 : (63#32 : BitVec 32).toInt = 63 := by decide
  have n63 : (63#32 : BitVec 32).toNat = 63 := by decide
  have hmax : IntOp.maxsi 0#32 l = l := by
    unfold IntOp.maxsi
    rw [if_neg]
    rw [BitVec.slt_iff_toInt_lt, e0]
    omega
  have h := BitVec.toInt_eq_toNat_cond l
  have hl := l.isLt
  rw [hmax]
  unfold IntOp.minsi
  show _ = min l.toInt.toNat 63
  by_cases hc : (63#32 : BitVec 32).slt l = true
  · rw [if_pos hc, n63]
    rw [BitVec.slt_iff_toInt_lt, e63] at hc
    omega
  · rw [if_neg hc]
    rw [BitVec.slt_iff_toInt_lt, e63] at hc
    split at h <;> omega

/-- Comparing a column's number with a word that, read unsigned, is a column's number holds exactly at that column. -/
private theorem cmp_col (c : BitVec 32) (j k : Fin 64) (hn : c.toNat = j.val) :
    IntOp.cmpi .eq (BitVec.ofNat 32 k.val) c = if k = j then 1#1 else 0#1 := by
  have hk := k.isLt
  have hj := j.isLt
  by_cases e : k = j
  · rw [if_pos e]
    refine IntOp.cmpi_eq.mpr (BitVec.eq_of_toNat_eq ?_)
    rw [BitVec.toNat_ofNat, hn, e]
    omega
  · rw [if_neg e]
    refine eq_zero_of_ne_one fun h => e (Fin.ext ?_)
    have h' := congrArg BitVec.toNat (IntOp.cmpi_eq.mp h)
    rw [BitVec.toNat_ofNat, hn] at h'
    omega

/-- A set bit, widened to a word and converted, is the extended real one. -/
private theorem bit_one : (FloatOps.sitofp (F := Ideal) .f32 ((1#1 : BitVec 1).setWidth 32) : EReal) = 1 := by
  show (((((1#1 : BitVec 1).setWidth 32).toInt : ℤ) : ℝ) : EReal) = 1
  have e : ((1#1 : BitVec 1).setWidth 32).toInt = 1 := by decide
  rw [e, Int.cast_one, EReal.coe_one]

/-- A clear bit, widened to a word and converted, is zero. -/
private theorem bit_zero : (FloatOps.sitofp (F := Ideal) .f32 ((0#1 : BitVec 1).setWidth 32) : EReal) = 0 := by
  show (((((0#1 : BitVec 1).setWidth 32).toInt : ℤ) : ℝ) : EReal) = 0
  have e : ((0#1 : BitVec 1).setWidth 32).toInt = 0 := by decide
  rw [e, Int.cast_zero, EReal.coe_zero]

/-! ## Layout: a column broadcast along rows, and a row sum kept as a column -/

/-- An `[a, 1]` column broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the second axis, kept as a column, read at a row: the sum of the row's entries. -/
private theorem colsum_apply {n : Nat} (v : FVec Ideal ⟨2, ![8192, n]⟩ .f32)
    (h : (⟨2, ![8192, n]⟩ : Shape).Reduces [1] S8192) (hφ : FKind.Formats .f32)
    (hacc : (0x00000000#32 : BitVec 32) = FKind.add.neutral .f32 hφ)
    (hc : S8192.ShapeCasts S8192x1) (r : Fin 8192) :
    shapeCast S8192x1 (multiReduction (F := Ideal) .add [1] S8192 v 0x00000000#32 h hφ hacc) hc (ix2 r (0 : Fin 1))
      = ∑ k : Fin n, v (ix2 r k) := by
  refine (shapeCast_apply _ hc (ix2 r (0 : Fin 1)) (ix1 r) ?_).trans ?_
  · refine (Shape.rowMajor_val_one (ix1 r)).trans (Eq.trans ?_ (Shape.rowMajor_val_two (ix2 r (0 : Fin 1))).symm)
    show r.val = r.val * 1 + 0
    omega
  refine (Ideal.multiReduction_add_single v _ h hφ hacc (ix1 r)).trans ?_
  refine Finset.sum_congr rfl fun k _ => congrArg v (funext fun a => Fin.ext ?_)
  match a with
  | ⟨0, _⟩ => rfl
  | ⟨1, _⟩ => rfl

/-! ## The one-hot matrix -/

/-- The one-hot bit at row `r`, column `k`: set exactly at the column the row's label, clamped to 63, names. -/
private theorem pay4_apply (x1 : Vec Ideal S8192x1 .i32) (hlab : LabelsOk x1) (r : Fin 8192) (k : Fin 64) :
    k0_pay4 (F := Ideal) x1 (ix2 r k) = if k = labelRow (x1 (ix2 r (0 : Fin 1))) then 1#1 else 0#1 := by
  have hi : iota .tc S8192x64 32 [1] iota_S8192x64_d1_w32 (ix2 r k) = BitVec.ofNat 32 k.val :=
    iota_single_apply .tc S8192x64 32 1 iota_S8192x64_d1_w32 (ix2 r k)
  have hs : shapeCast S8192x1 x1 shapeCasts_S8192x1_S8192x1 (ix2 r (0 : Fin 1)) = x1 (ix2 r (0 : Fin 1)) :=
    congrFun (shapeCast_self x1 shapeCasts_S8192x1_S8192x1) (ix2 r (0 : Fin 1))
  have hv : (minsi (broadcast S8192x1 63#32) (maxsi (broadcast S8192x1 0#32) (shapeCast S8192x1 x1 shapeCasts_S8192x1_S8192x1))
      (ix2 r (0 : Fin 1))).toNat = (labelRow (x1 (ix2 r (0 : Fin 1)))).val := by
    show (IntOp.minsi 63#32 (IntOp.maxsi 0#32 (shapeCast S8192x1 x1 shapeCasts_S8192x1_S8192x1 (ix2 r (0 : Fin 1))))).toNat = _
    rw [hs]
    exact clamp_toNat _ (hlab r)
  unfold k0_pay4
  show IntOp.cmpi .eq (iota .tc S8192x64 32 [1] iota_S8192x64_d1_w32 (ix2 r k))
      (broadcastTo S8192x64 (minsi (broadcast S8192x1 63#32) (maxsi (broadcast S8192x1 0#32)
        (shapeCast S8192x1 x1 shapeCasts_S8192x1_S8192x1))) broadcasts_S8192x1_S8192x64 (ix2 r k)) = _
  rw [hi, broadcastTo_a1_ab_apply _ broadcasts_S8192x1_S8192x64 r k]
  exact cmp_col _ _ k hv

/-- The one-hot entry as an extended real: one at the label's column, zero elsewhere. -/
private theorem hot_apply (x1 : Vec Ideal S8192x1 .i32) (hlab : LabelsOk x1) (r : Fin 8192) (k : Fin 64) :
    (sitofp (F := Ideal) .f32 (extui 32 (k0_pay4 (F := Ideal) x1) natLt_1_32) : FVec Ideal S8192x64 .f32) (ix2 r k)
      = if k = labelRow (x1 (ix2 r (0 : Fin 1))) then (1 : EReal) else 0 := by
  refine Eq.trans (congrArg (fun b : BitVec 1 => (FloatOps.sitofp (F := Ideal) .f32 (b.setWidth 32) : EReal))
    (pay4_apply x1 hlab r k)) ?_
  by_cases e : k = labelRow (x1 (ix2 r (0 : Fin 1)))
  · rw [if_pos e, if_pos e]
    exact bit_one
  · rw [if_neg e, if_neg e]
    exact bit_zero

/-- A sum weighted by a one-hot row is the one term it selects. -/
private theorem sum_hot (j : Fin 64) (T : Fin 64 → EReal) :
    ∑ c : Fin 64, (if c = j then (1 : EReal) else 0) * T c = T j := by
  rw [Finset.sum_eq_single j]
  · rw [if_pos rfl, one_mul]
  · intro c _ hc
    rw [if_neg hc, zero_mul]
  · intro h
    exact absurd (Finset.mem_univ j) h

/-! ## The matrix product of the one-hot matrix with a table of centers -/

/-- The product's operand indices at result entry `i` and contraction position `q`: the left operand is read at
    (`i`'s row, `q`), the right operand at (`q`, `i`'s column). Four facts, one per operand axis. -/
private theorem lhs_0 (i : S8192x256.Idx) (q : dot_S8192x64_S64x256_S8192x256_1_0_0_1_n_n.contr.Idx) :
    (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide),
    dif_pos (show (0 : Fin S8192x64.rank) ∈ dot_S8192x64_S64x256_S8192x256_1_0_0_1_n_n.lhsNonContracting by decide)]
  rfl

private theorem lhs_1 (i : S8192x256.Idx) (q : dot_S8192x64_S64x256_S8192x256_1_0_0_1_n_n.contr.Idx) :
    (dot_S8192x64_S64x256_S8192x256_1_0_0_1_n_n.lhsIdx i q 1).val = (q ⟨0, by decide⟩).val :=
  dot_S8192x64_S64x256_S8192x256_1_0_0_1_n_n.lhsIdx_val_of_single rfl i q

private theorem rhs_0 (i : S8192x256.Idx) (q : dot_S8192x64_S64x256_S8192x256_1_0_0_1_n_n.contr.Idx) :
    (dot_S8192x64_S64x256_S8192x256_1_0_0_1_n_n.rhsIdx i q 0).val = (q ⟨0, by decide⟩).val :=
  dot_S8192x64_S64x256_S8192x256_1_0_0_1_n_n.rhsIdx_val_of_single rfl i q

private theorem rhs_1 (i : S8192x256.Idx) (q : dot_S8192x64_S64x256_S8192x256_1_0_0_1_n_n.contr.Idx) :
    (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide),
    dif_pos (show (1 : Fin S64x256.rank) ∈ dot_S8192x64_S64x256_S8192x256_1_0_0_1_n_n.rhsNonContracting by decide)]
  rfl

/-- The product of an [8192, 64] matrix with a [64, 256] table into a zero accumulator, at row `r` and column `d`:
    the sum over the table's rows. -/
private theorem matmul_rc (A : FVec Ideal S8192x64 .bf16) (B : FVec Ideal S64x256 .bf16) (r : Fin 8192) (d : Fin 256) :
    matmul dot_S8192x64_S64x256_S8192x256_1_0_0_1_n_n none A B (constant (F := Ideal) S8192x256 .f32 0x00000000#32) (ix2 r d)
      = ∑ c : Fin 64, A (ix2 r c) * B (ix2 c d) := by
  refine (Ideal.matmul_constant_zero_apply dot_S8192x64_S64x256_S8192x256_1_0_0_1_n_n none A B (ix2 r d)).trans ?_
  rw [← Equiv.sum_comp (contrEquiv1 dot_S8192x64_S64x256_S8192x256_1_0_0_1_n_n 64 rfl rfl).symm]
  refine Finset.sum_congr rfl fun c _ => ?_
  have hc := contrEquiv1_symm_val dot_S8192x64_S64x256_S8192x256_1_0_0_1_n_n 64 rfl rfl c
  have el : dot_S8192x64_S64x256_S8192x256_1_0_0_1_n_n.lhsIdx (ix2 r d) ((contrEquiv1 dot_S8192x64_S64x256_S8192x256_1_0_0_1_n_n 64 rfl rfl).symm c) = ix2 r c :=
    funext fun a => Fin.ext (by
      match a with
      | ⟨0, _⟩ => exact lhs_0 _ _
      | ⟨1, _⟩ => exact (lhs_1 _ _).trans hc)
  have er : dot_S8192x64_S64x256_S8192x256_1_0_0_1_n_n.rhsIdx (ix2 r d) ((contrEquiv1 dot_S8192x64_S64x256_S8192x256_1_0_0_1_n_n 64 rfl rfl).symm c) = ix2 c d :=
    funext fun a => Fin.ext (by
      match a with
      | ⟨0, _⟩ => exact (rhs_0 _ _).trans hc
      | ⟨1, _⟩ => exact rhs_1 _ _)
  rw [el, er]

/-- The one-hot matrix times a table, at row `r` and column `d`: the entry of the table's row the label selects. -/
private theorem select_apply (x1 : Vec Ideal S8192x1 .i32) (hlab : LabelsOk x1) (T : FVec Ideal S64x256 .bf16)
    (r : Fin 8192) (d : Fin 256) :
    matmul (F := Ideal) (φ₁ := .bf16) (φ₂ := .bf16) dot_S8192x64_S64x256_S8192x256_1_0_0_1_n_n none
      (truncf (F := Ideal) .bf16 (sitofp (F := Ideal) .f32 (extui 32 (k0_pay4 (F := Ideal) x1) natLt_1_32)) bitsLt_bf16_f32)
      (shapeCast S64x256 T shapeCasts_S64x256_S64x256)
      (constant (F := Ideal) S8192x256 .f32 0x00000000#32) (ix2 r d)
    = T (ix2 (labelRow (x1 (ix2 r (0 : Fin 1)))) d) := by
  refine (matmul_rc _ _ r d).trans ?_
  refine Eq.trans (Finset.sum_congr rfl fun c _ => ?_)
    (sum_hot (labelRow (x1 (ix2 r (0 : Fin 1)))) fun c => T (ix2 c d))
  exact congrArg₂ (fun a b : EReal => a * b)
    ((truncf_apply _ bitsLt_bf16_f32 (ix2 r c)).trans (hot_apply x1 hlab r c))
    (congrFun (shapeCast_self T shapeCasts_S64x256_S64x256) (ix2 c d))

/-! ## The three per-row quantities -/

/-- The dot product of row `r` with the sum of the two center tables' rows its label selects. -/
theorem pay5_apply (x0 : Vec Ideal S8192x256 .f32) (x1 : Vec Ideal S8192x1 .i32) (x2 x3 : Vec Ideal S64x256 .bf16)
    (hlab : LabelsOk x1) (r : Fin 8192) :
    k0_pay5 (F := Ideal) x0 x1 x2 x3 (ix2 r (0 : Fin 1))
      = ∑ d : Fin 256, x0 (ix2 r d) * (x2 (ix2 (labelRow (x1 (ix2 r (0 : Fin 1)))) d) + x3 (ix2 (labelRow (x1 (ix2 r (0 : Fin 1)))) d)) := by
  unfold k0_pay5
  refine (colsum_apply _ _ _ _ _ r).trans ?_
  refine Finset.sum_congr rfl fun d _ => ?_
  refine (mulf_apply _ _ (ix2 r d)).trans ?_
  refine congrArg₂ (fun a b : EReal => a * b) rfl ?_
  refine (addf_apply _ _ (ix2 r d)).trans ?_
  exact congrArg₂ (fun a b : EReal => a + b) (select_apply x1 hlab x2 r d) (select_apply x1 hlab x3 r d)

/-- The norm of row `r`. -/
theorem pay6_apply (x0 : Vec Ideal S8192x256 .f32) (r : Fin 8192) :
    k0_pay6 (F := Ideal) x0 (ix2 r (0 : Fin 1)) = Ideal.sqrt (∑ d : Fin 256, x0 (ix2 r d) * x0 (ix2 r d)) := by
  unfold k0_pay6
  show Ideal.sqrt _ = _
  refine congrArg Ideal.sqrt ?_
  exact (colsum_apply _ _ _ _ _ r).trans (Finset.sum_congr rfl fun d _ => mulf_apply _ _ (ix2 r d))

/-- The precomputed norm of the center row `r`'s label selects. -/
theorem pay7_apply (x1 : Vec Ideal S8192x1 .i32) (x4 : Vec Ideal S1x64 .f32) (hlab : LabelsOk x1) (r : Fin 8192) :
    k0_pay7 (F := Ideal) x1 x4 (ix2 r (0 : Fin 1)) = x4 (ix2 (0 : Fin 1) (labelRow (x1 (ix2 r (0 : Fin 1))))) := by
  unfold k0_pay7
  refine (colsum_apply _ _ _ _ _ r).trans ?_
  refine Eq.trans (Finset.sum_congr rfl fun k _ => ?_)
    (sum_hot (labelRow (x1 (ix2 r (0 : Fin 1)))) fun k => x4 (ix2 (0 : Fin 1) k))
  refine (mulf_apply _ _ (ix2 r k)).trans ?_
  refine congrArg₂ (fun a b : EReal => a * b) (hot_apply x1 hlab r k) ?_
  refine (broadcastTo_1b_ab_apply _ broadcasts_S1x64_S8192x64 r k).trans ?_
  exact congrFun (shapeCast_self x4 shapeCasts_S1x64_S1x64) (ix2 (0 : Fin 1) k)

end Cert.KernelIdeal.PayRow

end
-- ==== Proof.PayTile.lean ====
/-
  The body's accumulator update read over the extended reals: the old word plus the sum, over the tile's 8192 rows,
  of the clamped cosine distance formed from the three per-row quantities. The row mask `row < 262144` holds at every
  row of every grid point (the grid's 32 tiles are exactly the 262144 rows), so it selects every row.
-/
import proofs.«402710_j13091060318226_2_alg».proof.Proof.Gen.KernelIdeal.Skeleton
import proofs.«402710_j13091060318226_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.PayTile

open Cert.KernelIdeal Cert.KernelIdeal.Gen Cert.InnerCos

/-- A tile viewed with a unit axis on either side has one index per row: (0, r, 0) for row r. -/
def rowEquiv : S1x8192x1.Idx ≃ Fin 8192 where
  toFun i := i 1
  invFun r := ix3 (0 : Fin 1) r (0 : Fin 1)
  left_inv i := by
    funext a
    match a with
    | ⟨0, _⟩ =>
      have h : (i 0).val < 1 := (i 0).isLt
      exact Fin.ext (by show 0 = (i 0).val; omega)
    | ⟨1, _⟩ => rfl
    | ⟨2, _⟩ =>
      have h : (i 2).val < 1 := (i 2).isLt
      exact Fin.ext (by show 0 = (i 2).val; omega)
  right_inv _ := rfl

/-- So a sum over that view's indices is the sum over the rows. -/
theorem sum_rows (f : S1x8192x1.Idx → EReal) :
    ∑ i, f i = ∑ r : Fin 8192, f (ix3 (0 : Fin 1) r (0 : Fin 1)) :=
  (Equiv.sum_comp rowEquiv.symm f).symm

/-- The sum over both axes of a tile so viewed, into the one-element result, is the sum over the rows. -/
theorem tile_sum (src : FVec Ideal S1x8192x1 .f32) (j : S1.Idx) :
    multiReduction .add [1, 2] S1 src 0x00000000#32 reduces_S1x8192x1_S1 (.inl rfl) rfl j
      = ∑ r : Fin 8192, src (ix3 (0 : Fin 1) r (0 : Fin 1)) :=
  (Ideal.multiReduction_add_total src 0x00000000#32 reduces_S1x8192x1_S1 (by decide) (.inl rfl) rfl j).trans (sum_rows src)

/-- A shape cast read at an index is the operand at the index of the same row-major position. -/
theorem shapeCast_eq {s t : Shape} {α : Type} (x : s.Idx → α) (h : s.ShapeCasts t) (j : t.Idx) :
    shapeCast t x h j = x (Shape.reshapeEquiv h j) := rfl

/-- Row r of tile (p, q) is row (16 p + q) * 8192 + r of the array, a number below 262144 = 2 * 16 * 8192: the
    word arithmetic does not wrap and the signed comparison with 262144 holds. -/
theorem mask_word (p : Fin 2) (q : Fin 16) (r : Fin 8192) :
    IntOp.cmpi .slt
      (IntOp.addi (Scalar.muli (Scalar.addi (Scalar.muli (BitVec.ofNat 32 p.val) 16#32) (BitVec.ofNat 32 q.val)) 8192#32)
        (BitVec.ofNat 32 r.val)) 262144#32 = 1#1 := by
  have hp := p.isLt
  have hq := q.isLt
  have hr := r.isLt
  have hx : IntOp.addi (Scalar.muli (Scalar.addi (Scalar.muli (BitVec.ofNat 32 p.val) 16#32) (BitVec.ofNat 32 q.val)) 8192#32)
        (BitVec.ofNat 32 r.val)
      = BitVec.ofNat 32 ((p.val * 16 + q.val) * 8192 + r.val) := by
    simp only [IntOp.addi, Scalar.muli, Scalar.addi, IntOp.muli]
    rw [BitVec.ofNat_add, BitVec.ofNat_mul, BitVec.ofNat_add, BitVec.ofNat_mul]
  rw [hx]
  have hn : (p.val * 16 + q.val) * 8192 + r.val < 262144 := by omega
  generalize (p.val * 16 + q.val) * 8192 + r.val = n at hn
  have h1 : (BitVec.ofNat 32 n).toNat = n := by
    rw [BitVec.toNat_ofNat]
    exact Nat.mod_eq_of_lt (by omega)
  have h2 : (BitVec.ofNat 32 n).toInt = (n : ℤ) := by
    rw [BitVec.toInt_eq_toNat_of_lt (by rw [h1]; omega), h1]
  have h3 : (262144#32 : BitVec 32).toInt = 262144 := by decide
  have hs : (BitVec.ofNat 32 n).slt 262144#32 = true := by
    rw [BitVec.slt_eq_decide, h2, h3]
    exact decide_eq_true (by omega)
  show BitVec.ofBool ((BitVec.ofNat 32 n).slt 262144#32) = 1#1
  rw [hs]
  rfl

/-- The row mask at row r of tile (p, q) is the set bit. -/
theorem mask_apply (p : Fin 2) (q : Fin 16) (r : Fin 8192) :
    cmpi .slt
        (addi (broadcast S8192x1 (Scalar.muli (Scalar.addi (Scalar.muli (BitVec.ofNat 32 p.val) 16#32) (BitVec.ofNat 32 q.val)) 8192#32))
          (iota .tc S8192x1 32 [0] iota_S8192x1_d0_w32))
        (broadcast S8192x1 262144#32) (ix2 r (0 : Fin 1)) = 1#1 := by
  show IntOp.cmpi .slt (IntOp.addi _ (iota .tc S8192x1 32 [0] iota_S8192x1_d0_w32 (ix2 r (0 : Fin 1)))) 262144#32 = 1#1
  rw [iota_single_apply]
  exact mask_word p q r

/-- The accumulator after the update, at its one index: the old word plus the tile's sum. -/
theorem pay1_apply (p : Fin 2) (q : Fin 16) (v29 v33 v37 : FVec Ideal S8192x1 .f32) (acc : Vec Ideal S1x1 .f32) (y : S1x1.Idx) :
    k0_pay1 (F := Ideal) (BitVec.ofNat 32 p.val) (BitVec.ofNat 32 q.val) v29 v33 v37 acc y
      = acc y + ∑ r : Fin 8192, min hi (max lo (one - Ideal.div (v29 (ix2 r (0 : Fin 1)))
          (max (v33 (ix2 r (0 : Fin 1)) * v37 (ix2 r (0 : Fin 1))) eps))) := by
  unfold k0_pay1
  simp only [shapeCast_self, addf_apply, broadcast_apply, extractAt]
  rw [shapeCast_eq _ shapeCasts_S1_S1x1x1]
  refine congrArg (acc y + ·) ((tile_sum _ _).trans (Finset.sum_congr rfl fun r _ => ?_))
  refine (shapeCast_ab_1ab_apply _ _ _ _ _).trans ?_
  rw [select_apply, mask_apply p q r, select_one]
  rfl

/-- The zero the first tile of a core stores is the extended real zero. -/
theorem pay3_apply (y : S1x1.Idx) : k0_pay3 (F := Ideal) y = 0 := by
  show Ideal.ofBits .f32 0x00000000#32 = 0
  exact Ideal.ofBits_zero_f32

/-- The output block is the accumulator's word in every place. -/
theorem pay2_apply (v : Vec Ideal S1x1 .f32) (j : S1x8x128.Idx) :
    k0_pay2 (F := Ideal) v j = v (ix2 (0 : Fin 1) (0 : Fin 1)) := by
  show v (fun a => ⟨(![0, 0] : Fin 2 → Nat) a, inpos_S1x1_p0_0 a⟩) = v (ix2 (0 : Fin 1) (0 : Fin 1))
  congr 1
  funext a
  match a with
  | ⟨0, _⟩ => rfl
  | ⟨1, _⟩ => rfl

end Cert.KernelIdeal.PayTile

end
-- ==== Proof.Blocks.lean ====
/-
  What the kernel's input blocks hold at a grid point, over the extended reals, in terms of the three arguments:
  tile `t` of `ref_emb` and of the labels (point `t` of the 2 x 16 grid reads block `t`), the whole of `centers`
  (a change of float format is the identity), the residue table `centers - centers`, which is zero where `centers`
  is finite, and the table of the centers' norms.
-/
import proofs.«402710_j13091060318226_2_alg».proof.Proof.Gen.KernelIdeal.Frame
import proofs.«402710_j13091060318226_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.InnerCos

variable (m : (ℓ : Loc nD τ sig) → Buf (Elt Ideal) ℓ)

/-- The three arguments on core `c`. -/
abbrev Xa (c : Dev nD) : XS.Idx → EReal := m ((c : Thread nD τ).loc main_arg0)
abbrev La (c : Dev nD) : LS.Idx → BitVec 32 := m ((c : Thread nD τ).loc main_arg1)
abbrev Ca (c : Dev nD) : CS.Idx → EReal := m ((c : Thread nD τ).loc main_arg2)

/-- The five input blocks at point `t`, each at its literal type. -/
abbrev xblk (c : Dev nD) (t : Fin cfg0.N) : Vec Ideal S8192x256 .f32 := iblk m c 0 t
abbrev lblk (c : Dev nD) (t : Fin cfg0.N) : Vec Ideal S8192x1 .i32 := iblk m c 1 t
abbrev hblk (c : Dev nD) (t : Fin cfg0.N) : Vec Ideal S64x256 .bf16 := iblk m c 2 t
abbrev rblk (c : Dev nD) (t : Fin cfg0.N) : Vec Ideal S64x256 .bf16 := iblk m c 3 t
abbrev nblk (c : Dev nD) (t : Fin cfg0.N) : Vec Ideal S1x64 .f32 := iblk m c 4 t

/-- A row of tile `t` is a row of the array. -/
theorem row_lt (t : Fin cfg0.N) (r : Fin 8192) : t.val * 8192 + r.val < 262144 := by
  have : t.val < 32 := lt_of_lt_of_eq t.isLt (show cfg0.N = 32 from N_0)
  have := r.isLt
  omega

/-! ## Which block each point reads

Point `t` of the grid reads block row `t` of `ref_emb` and of the label column, and the one block of each of the three
tables. -/

theorem index0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem index1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t
theorem index2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t
theorem index3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t
theorem index4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t

/-! ## Two reads at an index -/

/-- A vector of `a` entries reshaped to a column `[a, 1]` holds, in row `n`, entry `n`. -/
theorem shapeCast_column_apply {α : Type} {a : ℕ} (x : (⟨1, ![a]⟩ : Shape).Idx → α)
    (h : (⟨1, ![a]⟩ : Shape).ShapeCasts ⟨2, ![a, 1]⟩) (j : (⟨2, ![a, 1]⟩ : Shape).Idx) (n : Fin a)
    (hn : (j 0).val = n.val) : shapeCast ⟨2, ![a, 1]⟩ x h j = x (ix1 n) :=
  shapeCast_apply x h j (ix1 n) (by
    have hu : (j 1).val < 1 := idx2_lt1 j
    rw [Shape.rowMajor_val_two, Shape.rowMajor_val_one]
    show n.val = (j 0).val * 1 + (j 1).val
    omega)

/-- The norm of row `k` of a table `C` as the host forms it: the square root of the sum, from zero, of the row's
    squares. -/
theorem norm_apply (C : S64x256.Idx → EReal) (k : Fin 64) :
    Host.sqrt (Host.reduceAdd (mulf (F := Ideal) (s := S64x256) (φ := .f32) C C) (constant (F := Ideal) S_ .f32 0x00000000#32)
        reducesTo_S64x256_S64_d1 h_S_) (ix1 k)
      = Ideal.sqrt (0 + ∑ d : Fin 256, C (ix2 k d) * C (ix2 k d)) := by
  have hr : S64x256.Reduces [1] S64 := by decide
  show Ideal.sqrt (Ideal.hostReduceAdd reducesTo_S64x256_S64_d1 (mulf (F := Ideal) (s := S64x256) (φ := .f32) C C)
    (Ideal.ofBits .f32 0x00000000#32) (ix1 k)) = _
  rw [Ideal.hostReduceAdd_single reducesTo_S64x256_S64_d1 hr, Ideal.ofBits_zero_f32]
  refine congrArg (fun z => Ideal.sqrt (0 + z)) (Finset.sum_congr rfl fun d _ => ?_)
  exact congrArg (fun i => C i * C i)
    (funext fun a => Fin.ext (by match a with | ⟨0, _⟩ => rfl | ⟨1, _⟩ => rfl))

/-! ## The blocks -/

/-- Block `t` of `ref_emb`: rows `8192 t` onward. -/
theorem xblk_apply (c : Dev nD) (t : Fin cfg0.N) (r : Fin 8192) (d : Fin 256) :
    xblk m c t (ix2 r d) = Xa m c (ix2 ⟨t.val * 8192 + r.val, row_lt t r⟩ d) := by
  have hi := index0 t
  unfold xblk iblk
  rw [View.read_apply]
  show V m c main_arg0 (((cfg0.win 0).blk t).view.emb (ix2 r d)) = _
  rw [V_main_arg0 m c]
  refine congrArg _ (funext fun a => Fin.ext ?_)
  match a with
  | ⟨0, _⟩ => show win0_0.index t 0 * 8192 + 1 * r.val = t.val * 8192 + r.val; rw [hi.1]; omega
  | ⟨1, _⟩ => show win0_0.index t 1 * 256 + 1 * d.val = d.val; rw [hi.2]; omega

/-- Block `t` of the labels (reshaped to a column by the host): rows `8192 t` onward. -/
theorem lblk_apply (c : Dev nD) (t : Fin cfg0.N) (r : Fin 8192) :
    lblk m c t (ix2 r (0 : Fin 1)) = La m c (ix1 ⟨t.val * 8192 + r.val, row_lt t r⟩) := by
  have hi := index1 t
  have e : (V m c main_v0 : S262144x1.Idx → BitVec 32)
      = shapeCast S262144x1 (La m c) shapeCasts_S262144_S262144x1 := by
    show StableHlo.after hostOps0 (fun b => m (c, b)) (Proc.devRef .tc main_v0) = _
    after_results
    rfl
  unfold lblk iblk
  rw [View.read_apply]
  show V m c main_v0 (((cfg0.win 1).blk t).view.emb (ix2 r (0 : Fin 1))) = _
  rw [e]
  exact shapeCast_column_apply _ _ _ ⟨t.val * 8192 + r.val, row_lt t r⟩
    (by show win0_1.index t 0 * 8192 + 1 * r.val = t.val * 8192 + r.val; rw [hi.1]; omega)

/-- The first center table is `centers`. -/
theorem hblk_apply (c : Dev nD) (t : Fin cfg0.N) (k : Fin 64) (d : Fin 256) :
    hblk m c t (ix2 k d) = Ca m c (ix2 k d) := by
  have hi := index2 t
  have e : ∀ i : S64x256.Idx, (V m c main_v1 : S64x256.Idx → EReal) i = Ca m c i := fun i => by
    show StableHlo.after hostOps0 (fun b => m (c, b)) (Proc.devRef .tc main_v1) i = _
    after_results
    rfl
  unfold hblk iblk
  rw [View.read_apply]
  show V m c main_v1 (((cfg0.win 2).blk t).view.emb (ix2 k d)) = _
  rw [e]
  refine congrArg _ (funext fun a => Fin.ext ?_)
  match a with
  | ⟨0, _⟩ => show win0_2.index t 0 * 64 + 1 * k.val = k.val; rw [hi.1]; omega
  | ⟨1, _⟩ => show win0_2.index t 1 * 256 + 1 * d.val = d.val; rw [hi.2]; omega

/-- The second center table, `centers - centers`, is zero where `centers` is finite. -/
theorem rblk_apply (c : Dev nD) (t : Fin cfg0.N) (k : Fin 64) (d : Fin 256)
    (hfin : ∀ i : CS.Idx, ∃ x : ℝ, Ca m c i = (x : EReal)) :
    rblk m c t (ix2 k d) = 0 := by
  have e : ∀ i : S64x256.Idx, (V m c main_v4 : S64x256.Idx → EReal) i = Ca m c i - Ca m c i := fun i => by
    show StableHlo.after hostOps0 (fun b => m (c, b)) (Proc.devRef .tc main_v4) i = _
    after_results
    rfl
  unfold rblk iblk
  rw [View.read_apply]
  show V m c main_v4 (((cfg0.win 3).blk t).view.emb (ix2 k d)) = _
  rw [e]
  obtain ⟨x, hx⟩ := hfin (((cfg0.win 3).blk t).view.emb (ix2 k d))
  rw [hx, ← EReal.coe_sub, sub_self, EReal.coe_zero]

/-- The norm table: the square root of each center's sum of squares (the host's sum starts from zero). -/
theorem nblk_apply (c : Dev nD) (t : Fin cfg0.N) (k : Fin 64) :
    nblk m c t (ix2 (0 : Fin 1) k) = Ideal.sqrt (0 + ∑ d : Fin 256, Ca m c (ix2 k d) * Ca m c (ix2 k d)) := by
  have hi := index4 t
  have e : (V m c main_v8 : S1x64.Idx → EReal)
      = shapeCast S1x64 (Host.sqrt (Host.reduceAdd (mulf (F := Ideal) (s := S64x256) (φ := .f32) (Ca m c) (Ca m c))
          (constant (F := Ideal) S_ .f32 0x00000000#32) reducesTo_S64x256_S64_d1 h_S_)) shapeCasts_S64_S1x64 := by
    show StableHlo.after hostOps0 (fun b => m (c, b)) (Proc.devRef .tc main_v8) = _
    after_results
    rfl
  have hj : (((cfg0.win 4).blk t).view.emb (ix2 (0 : Fin 1) k) : S1x64.Idx) = ix2 (0 : Fin 1) k :=
    funext fun a => Fin.ext (by
      match a with
      | ⟨0, _⟩ => show win0_4.index t 0 * 1 + 1 * 0 = 0; rw [hi.1]
      | ⟨1, _⟩ => show win0_4.index t 1 * 64 + 1 * k.val = k.val; rw [hi.2]; omega)
  unfold nblk iblk
  rw [View.read_apply]
  show V m c main_v8 (((cfg0.win 4).blk t).view.emb (ix2 (0 : Fin 1) k)) = _
  rw [e, hj]
  refine (shapeCast_a_1a_apply _ _ (0 : Fin 1) k).trans ?_
  exact norm_apply (Ca m c) k

end Cert.KernelIdeal.Blocks

end
-- ==== Proof.Invariant.lean ====
/-
  The accumulator, point by point: after grid point `n` the one-word scratch holds the sum of the tiles of `n`'s core
  up to `n` (reset at the core's first tile, added to afterwards), and at the core's last tile the output block holds
  the core's whole sum. By induction on the point over the three control cases.
-/
import proofs.«402710_j13091060318226_2_alg».proof.Proof.Pieces
import proofs.«402710_j13091060318226_2_alg».proof.Proof.PayRow
import proofs.«402710_j13091060318226_2_alg».proof.Proof.PayTile
import proofs.«402710_j13091060318226_2_alg».proof.Proof.Blocks

noncomputable section

open scoped BigOperators
open Idealize.ShloMosaic Idealize.ShloMosaic.TcCoe Idealize.SL.Sem Idealize.ShloMosaic.ValueIdx

namespace Cert.KernelIdeal.Invariant

open Cert.KernelIdeal Cert.KernelIdeal.Gen Cert.InnerCos
open Cert.KernelIdeal.Blocks Cert.KernelIdeal.Pieces Cert.KernelIdeal.PayRow Cert.KernelIdeal.PayTile

variable (m : (ℓ : Loc nD τ sig) → Buf (Elt Ideal) ℓ)

/-- The two facts the precondition gives about core `c`'s arguments. -/
def Ok (c : Dev nD) : Prop :=
  (∀ i : CS.Idx, ∃ x : ℝ, Ca m c i = (x : EReal)) ∧ (∀ i : LS.Idx, 0 ≤ (La m c i).toInt)

theorem labelsOk (c : Dev nD) (hok : Ok m c) (t : Fin cfg0.N) : LabelsOk (lblk m c t) := fun r => by
  rw [lblk_apply]; exact hok.2 _

/-- One tile's update of the accumulator adds that tile's sum of clamped cosine distances. -/
theorem tile_eq (c : Dev nD) (hok : Ok m c) (t : Fin cfg0.N) (acc : Vec Ideal S1x1 .f32) (y : S1x1.Idx) :
    accAfter (F := Ideal) (grid0.coords t) (xblk m c t) (lblk m c t) (hblk m c t) (rblk m c t) (nblk m c t) acc y
      = acc y + tile (Xa m c) (La m c) (Ca m c) t.val := by
  have hl := labelsOk m c hok t
  show k0_pay1 (F := Ideal) (BitVec.ofNat 32 ((⟨(grid0.coords t 0).val, (grid0.coords t 0).isLt⟩ : Fin 2)).val)
      (BitVec.ofNat 32 ((⟨(grid0.coords t 1).val, (grid0.coords t 1).isLt⟩ : Fin 16)).val) _ _ _ acc y = _
  rw [pay1_apply]
  congr 1
  unfold tile
  refine Finset.sum_congr rfl fun r _ => ?_
  rw [pay5_apply _ _ _ _ hl, pay6_apply, pay7_apply _ _ hl, lblk_apply, nblk_apply]
  unfold lossN
  rw [dif_pos (row_lt t r)]
  unfold loss rowLoss rowLossK
  simp only [xblk_apply, hblk_apply, rblk_apply m c t _ _ hok.1, add_zero, zero_add]

/-- The accumulator after a core's first tile: zero plus the tile. -/
theorem acc_A (c : Dev nD) (hok : Ok m c) (t : Fin cfg0.N) (h0 : t.val % 16 = 0) (h1 : ¬t.val % 16 = 15) (y : S1x1.Idx) :
    (outsAt0 m c t.val t.isLt).2 y = tile (Xa m c) (La m c) (Ca m c) t.val := by
  rw [outsAt0_A m c t h0 h1]
  dsimp only
  rw [sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)]
  refine (tile_eq m c hok t (k0_pay3 (F := Ideal)) y).trans ?_
  rw [pay3_apply, zero_add]

/-- After a middle tile: what the tile before left, plus the tile. -/
theorem acc_B (c : Dev nD) (hok : Ok m c) (t : Fin cfg0.N) (h0 : ¬t.val % 16 = 0) (h1 : ¬t.val % 16 = 15) (y : S1x1.Idx) :
    (outsAt0 m c t.val t.isLt).2 y
      = (outsAt0 m c (t.val - 1) (Nat.lt_of_le_of_lt (Nat.sub_le _ _) t.isLt)).2 y + tile (Xa m c) (La m c) (Ca m c) t.val := by
  rw [outsAt0_B m c t h0 h1]
  dsimp only
  rw [sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2]
  exact tile_eq m c hok t _ y

/-- After a core's last tile: the same, -/
theorem acc_C (c : Dev nD) (hok : Ok m c) (t : Fin cfg0.N) (h0 : ¬t.val % 16 = 0) (h1 : t.val % 16 = 15) (y : S1x1.Idx) :
    (outsAt0 m c t.val t.isLt).2 y
      = (outsAt0 m c (t.val - 1) (Nat.lt_of_le_of_lt (Nat.sub_le _ _) t.isLt)).2 y + tile (Xa m c) (La m c) (Ca m c) t.val := by
  rw [outsAt0_C m c t h0 h1]
  dsimp only
  rw [sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
  exact tile_eq m c hok t _ y

/-- and the output block then holds the new accumulator's word in every place. -/
theorem out_C_acc (c : Dev nD) (t : Fin cfg0.N) (h0 : ¬t.val % 16 = 0) (h1 : t.val % 16 = 15) (j : S1x8x128.Idx) :
    (outsAt0 m c t.val t.isLt).1 j = (outsAt0 m c t.val t.isLt).2 (ix2 (0 : Fin 1) (0 : Fin 1)) := by
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
    sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
  exact pay2_apply _ j

/-- THE INVARIANT: after point `n` the accumulator holds the running sum of `n`'s core. -/
theorem acc_eq (c : Dev nD) (hok : Ok m c) : ∀ (n : ℕ) (h : n < cfg0.N) (y : S1x1.Idx),
    (outsAt0 m c n h).2 y = runSum (Xa m c) (La m c) (Ca m c) n
  | 0, h, y => by
    rw [runSum_first _ _ _ 0 rfl]
    exact acc_A m c hok ⟨0, h⟩ rfl (by show ¬(0 % 16 = 15); decide) y
  | n + 1, h, y => by
    have hN : n + 1 < 32 := lt_of_lt_of_eq h (show cfg0.N = 32 from N_0)
    by_cases h0 : (n + 1) % 16 = 0
    · rw [runSum_first _ _ _ (n + 1) h0]
      exact acc_A m c hok ⟨n + 1, h⟩ h0 (by show ¬((n + 1) % 16 = 15); omega) y
    · rw [runSum_step _ _ _ (n + 1) h0]
      by_cases h1 : (n + 1) % 16 = 15
      · refine (acc_C m c hok ⟨n + 1, h⟩ h0 h1 y).trans ?_
        exact congrArg (· + _) (acc_eq c hok n (Nat.lt_of_succ_lt h) y)
      · refine (acc_B m c hok ⟨n + 1, h⟩ h0 h1 y).trans ?_
        exact congrArg (· + _) (acc_eq c hok n (Nat.lt_of_succ_lt h) y)

/-- At a core's last point the output block holds the core's sum in every place. -/
theorem out_eq (c : Dev nD) (hok : Ok m c) (t : Fin cfg0.N) (h15 : t.val % 16 = 15) :
    (outsAt0 m c t.val t.isLt).1 = fun _ => coreSum (Xa m c) (La m c) (Ca m c) (t.val / 16) := by
  funext j
  rw [out_C_acc m c t (by omega) h15 j, acc_eq m c hok t.val t.isLt, runSum_last _ _ _ t.val h15]

end Cert.KernelIdeal.Invariant

end
-- ==== Proof.Final.lean ====
/-
  The kernel's result array [2, 8, 128] after the run: block `c` is written back once, at core `c`'s last grid point,
  with that core's sum in every place; the two blocks cover the array.
-/
import proofs.«402710_j13091060318226_2_alg».proof.Proof.Gen.KernelIdeal.Frame
import proofs.«402710_j13091060318226_2_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.InnerCos

variable (m : (ℓ : Loc nD τ sig) → Buf (Elt Ideal) ℓ)

/-- An array [2, 8, 128] holding `s 0` throughout its first block and `s 1` throughout its second. -/
def blocksOf (c : Dev nD) (s : ℕ → EReal) : Buf (Elt Ideal) ((c : Thread nD τ).loc main_v9) :=
  fun i => s (i 0).val

/-- The result window's block index at grid point `t`: the core `t / 16` on the first axis, zero on the other two. -/
theorem idx5 : ∀ t : Fin cfg0.N, win0_5.index t (0 : Fin 3) = t.val / 16
    ∧ win0_5.index t (1 : Fin 3) = 0 ∧ win0_5.index t (2 : Fin 3) = 0 :=
  (by decide +kernel : ∀ t : Fin grid0.N, win0_5.index t (0 : Fin 3) = t.val / 16
    ∧ win0_5.index t (1 : Fin 3) = 0 ∧ win0_5.index t (2 : Fin 3) = 0)

/-- What a core's last point writes back is its block of `blocksOf s`: the block's first coordinate in the array is
    the core `t / 16`, and the staging block holds `s (t / 16)` in every place. -/
theorem flushed5_eq (c : Dev nD) (s : ℕ → EReal)
    (hout : ∀ t : Fin cfg0.N, t.val % 16 = 15 → (outsAt0 m c t.val t.isLt).1 = fun _ => s (t.val / 16))
    (t : Fin cfg0.N) (hf : (cfg0.win 5).flush t = true) :
    (dats m 0 c).flushed 5 t = ((cfg0.win 5).blk t).view.read (Elt Ideal) (blocksOf c s) := by
  show (cfg0.win 5).cut (grid0.coords t) ((dats m 0 c).after 5 t) = _
  rw [after0_5, hout t ((flush0_5 t).mp hf)]
  funext j
  have hj : (j 0).val < 1 := (j 0).isLt
  obtain ⟨e0, -, -⟩ := idx5 t
  have hemb : ((((cfg0.win 5).blk t).view.emb j) 0).val = t.val / 16 := by
    show win0_5.index t (0 : Fin 3) * 1 + 1 * (j 0).val = t.val / 16
    omega
  show s (t.val / 16) = s ((((cfg0.win 5).blk t).view.emb j) 0).val
  rw [hemb]

/-- An index of the array is in point `t`'s block iff each coordinate is in the block's range on its axis. -/
theorem mem_blk5 (t : Fin cfg0.N) (i : S2x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v9).slice (win0_5.rect t)).set ↔ _
  rw [View.set_slice_whole, Rect.mem_set_unit]
  exact Iff.rfl

/-- If at each core's last point the output's staging block holds `s (t / 16)` in every place, the result array ends
    as `blocksOf s`. -/
theorem final5 (c : Dev nD) (s : ℕ → EReal)
    (hout : ∀ t : Fin cfg0.N, t.val % 16 = 15 → (outsAt0 m c t.val t.isLt).1 = fun _ => s (t.val / 16)) :
    (dats m 0 c).arrAt 5 cfg0.N = blocksOf c s :=
  (dats m 0 c).arrAt_eq_of_cover 5 (blocksOf c s) (flushed5_eq m c s hout) fun i => by
    have hN : cfg0.N = 32 := N_0
    have h0 : (i 0).val < 2 := (i 0).isLt
    have h1 : (i 1).val < 8 := (i 1).isLt
    have h2 : (i 2).val < 128 := (i 2).isLt
    obtain ⟨t, ht⟩ : ∃ t : Fin cfg0.N, t.val = 16 * (i 0).val + 15 := ⟨⟨16 * (i 0).val + 15, by omega⟩, rfl⟩
    obtain ⟨e0, e1, e2⟩ := idx5 t
    refine ⟨t, (flush0_5 t).mpr (by omega), ?_⟩
    rw [mem_blk5]
    intro a
    match a with
    | ⟨0, _⟩ =>
      show win0_5.index t (0 : Fin 3) * 1 ≤ (i 0).val ∧ (i 0).val < win0_5.index t (0 : Fin 3) * 1 + 1
      omega
    | ⟨1, _⟩ =>
      show win0_5.index t (1 : Fin 3) * 8 ≤ (i 1).val ∧ (i 1).val < win0_5.index t (1 : Fin 3) * 8 + 8
      omega
    | ⟨2, _⟩ =>
      show win0_5.index t (2 : Fin 3) * 128 ≤ (i 2).val ∧ (i 2).val < win0_5.index t (2 : Fin 3) * 128 + 128
      omega

end Cert.KernelIdeal.Final

end
-- ==== Proof.Tail.lean ====
/-
  The six host operations after the kernel: slice the first place of each core's block, reshape to a vector of two,
  add the two from zero, divide by the row count.
-/
import proofs.«402710_j13091060318226_2_alg».proof.Proof.Gen.KernelIdeal.Frame
import proofs.«402710_j13091060318226_2_alg».proof.Proof.Spec
import Idealize.ShloMosaic.Lib.Pipeline.Value
import Idealize.ShloMosaic.Lib.StableHlo.Run
import Idealize.ShloMosaic.Lib.ValueIdx
import Idealize.ShloMosaic.Lib.ValueIdxRank1
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.InnerCos

/-- A sum over the two places of a vector of two is the first place plus the second. -/
theorem sum_two {M : Type*} [AddCommMonoid M] (f : (⟨1, ![2]⟩ : Shape).Idx → M) :
    ∑ i, f i = f (ix1 (0 : Fin 2)) + f (ix1 (1 : Fin 2)) := by
  rw [← Equiv.sum_comp (idxEquiv1 (n := 2)).symm f, Fin.sum_univ_two]
  rfl

/-- Place `a` of the vector of two is the first place of core `a`'s block: the slice keeps offsets zero, and the
    reshape from [2, 1, 1] to [2] keeps the row-major position, which is `a` on both sides. -/
theorem read_place (W : FVec Ideal S2x8x128 .f32) (hs : S2x8x128.Slices ![0, 0, 0] S2x1x1) (hc : S2x1x1.ShapeCasts S2)
    (a : Fin 2) :
    shapeCast S2 (extractStridedSlice S2x1x1 ![0, 0, 0] W hs) hc (ix1 a) = W (ix3 a (0 : Fin 8) (0 : Fin 128)) := by
  refine (shapeCast_apply (extractStridedSlice S2x1x1 ![0, 0, 0] W hs) hc (ix1 a) (ix3 a (0 : Fin 1) (0 : Fin 1)) ?_).trans ?_
  · rw [Shape.rowMajor_val_three, Shape.rowMajor_val_one]
    show (a.val * 1 + 0) * 1 + 0 = a.val
    omega
  · refine extractStridedSlice_apply ![0, 0, 0] W hs (ix3 a (0 : Fin 1) (0 : Fin 1)) (ix3 a (0 : Fin 8) (0 : Fin 128)) ?_
    intro b
    match b with
    | ⟨0, _⟩ => show a.val = 0 + a.val; omega
    | ⟨1, _⟩ => rfl
    | ⟨2, _⟩ => rfl

/-- The tail as a function of the kernel's result array: zero plus the two cores' first places, over the row count. -/
theorem tail_fn (W : FVec Ideal S2x8x128 .f32) (hs : S2x8x128.Slices ![0, 0, 0] S2x1x1) (hc : S2x1x1.ShapeCasts S2)
    (hr : S2.ReducesTo [0] S_) (hu : 0 < S_.numel) :
    Host.divf (F := Ideal)
        (Host.reduceAdd (F := Ideal) (fun i => shapeCast S2 (extractStridedSlice S2x1x1 ![0, 0, 0] W hs) hc i)
          (constant (F := Ideal) S_ .f32 0x00000000#32) hr hu)
        (constant (F := Ideal) S_ .f32 0x48800000#32)
      = fun _ => Ideal.div (0 + (W (ix3 (0 : Fin 2) (0 : Fin 8) (0 : Fin 128)) + W (ix3 (1 : Fin 2) (0 : Fin 8) (0 : Fin 128)))) cnt := by
  funext j
  show Ideal.div (Ideal.hostReduceAdd hr (fun i => shapeCast S2 (extractStridedSlice S2x1x1 ![0, 0, 0] W hs) hc i)
      (Ideal.ofBits .f32 0x00000000#32) j) (Ideal.ofBits .f32 0x48800000#32) = _
  rw [Ideal.hostReduceAdd_total hr (fun b => b.elim0), Ideal.ofBits_zero_f32, sum_two, read_place, read_place]
  rfl

variable (m : (ℓ : Loc nD τ sig) → Buf (Elt Ideal) ℓ)

/-- The program's result after the host tail, given what the kernel's result array holds. -/
theorem tail_v13 (c : Dev nD) (A : FVec Ideal S2x8x128 .f32)
    (hA : (dats m 0 c).arrAt 5 cfg0.N = A) :
    Pipeline.afterTail₀ cfgs (dats m) 0 (V0 m) [hostOps1] c main_v13
      = fun _ => Ideal.div (0 + (A (ix3 (0 : Fin 2) (0 : Fin 8) (0 : Fin 128)) + A (ix3 (1 : Fin 2) (0 : Fin 8) (0 : Fin 128)))) cnt := by
  unfold Pipeline.afterTail₀
  show StableHlo.after hostOps1 _ (Proc.devRef .tc main_v13) = _
  -- the region's exit contents, named; of them only the kernel's result array is read
  generalize hV : Pipeline.withArrays _ _ _ _ = V
  have hW : V (Proc.devRef .tc main_v9) = A := by
    rw [← hV]
    exact (Pipeline.withArrays_arr spec0 launch0.win.arr_inj c (V0 m c) (fun w => (dats m 0 c).arrAt w cfg0.N) 5).trans hA
  after_results
  rw [hW]
  exact tail_fn A _ _ _ _

end Cert.KernelIdeal.Tail

end
-- ==== Proof.KernelRun.lean ====
/-
  The kernel program's run, read: every weakly fair execution ends with the result at the mean as the kernel forms it
  (the two cores' sums, each the sum of its sixteen tiles, added from zero and divided by the row count) and the three
  arguments unchanged.
-/
import proofs.«402710_j13091060318226_2_alg».proof.Proof.Invariant
import proofs.«402710_j13091060318226_2_alg».proof.Proof.Final
import proofs.«402710_j13091060318226_2_alg».proof.Proof.Tail

noncomputable section

open scoped BigOperators
open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.InnerCos
open Cert.KernelIdeal.Blocks Cert.KernelIdeal.Invariant Cert.KernelIdeal.Final Cert.KernelIdeal.Tail

variable (m : (ℓ : Loc nD τ sig) → Buf (Elt Ideal) ℓ) (ρ : Dev nD → PrngReg)

/-- The program's result on core `c`: the mean. -/
theorem result_eq (c : Dev nD) (hok : Ok m c) :
    Pipeline.afterTail₀ cfgs (dats m) 0 (V0 m) [hostOps1] c main_v13 = fun _ => meanK (Xa m c) (La m c) (Ca m c) := by
  rw [tail_v13 m c _ (final5 m c (coreSum (Xa m c) (La m c) (Ca m c)) (out_eq m c hok))]
  rfl

/-- The run. -/
theorem run (hok : ∀ c, Ok m c) :
    θ_run defs (onTc (τ := τ) (main (F := Ideal))) ⟨m, fun _ => 0, ρ⟩ (fun r => ∀ c : Dev nD,
      r.2.mem ((c.tc : Thread nD τ).loc main_v13) = (fun _ => meanK (Xa m c) (La m c) (Ca m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans (result_eq m c (hok c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.lean ====
/-
  The inner cosine loss: for each of the 262144 rows of `ref_emb`, the cosine distance between the row and the row of
  `centers` its label selects, clamped into [1e-12, 1e12]; the result is the mean over the rows.

  Over the extended reals the kernel and the reference compute the same number. The kernel selects a center by a
  one-hot matrix product against two tables, `centers` itself and the residue `centers - centers`, which is zero because
  `centers` is finite (the precondition), so the product picks out exactly the labelled row; its norm comes from a
  table of the centers' norms selected by the same one-hot row; the clamped distances of a tile's 8192 rows are added
  into a one-word accumulator carried across a core's sixteen tiles, each core's total is written to its block of the
  result array, and the host adds the two cores' totals and divides by the row count. The reference gathers the
  labelled rows, forms the same distance row by row and takes one sum over all rows. The two sums differ only in
  grouping, and addition of extended reals is commutative and associative. Labels are assumed non-negative (the
  precondition): the kernel clamps a label into [0, 63] where the reference first wraps a negative one and then
  clamps, so at a negative label the two select different rows; at a label above 63 both clamp to row 63.
-/
import proofs.«402710_j13091060318226_2_alg».proof.Defs
import proofs.«402710_j13091060318226_2_alg».proof.Proof.Gen.Kernel
import proofs.«402710_j13091060318226_2_alg».proof.Proof.Gen.Kernel.Skeleton
import proofs.«402710_j13091060318226_2_alg».proof.Proof.Gen.Kernel.Launch
import proofs.«402710_j13091060318226_2_alg».proof.Proof.Gen.Kernel.Points
import proofs.«402710_j13091060318226_2_alg».proof.Proof.Gen.Kernel.Frame
import proofs.«402710_j13091060318226_2_alg».proof.Proof.Gen.KernelIdeal
import proofs.«402710_j13091060318226_2_alg».proof.Proof.Gen.KernelIdeal.Skeleton
import proofs.«402710_j13091060318226_2_alg».proof.Proof.Gen.KernelIdeal.Launch
import proofs.«402710_j13091060318226_2_alg».proof.Proof.Gen.KernelIdeal.Points
import proofs.«402710_j13091060318226_2_alg».proof.Proof.Gen.KernelIdeal.Frame
import proofs.«402710_j13091060318226_2_alg».proof.Proof.Gen.ReferenceIdeal
import proofs.«402710_j13091060318226_2_alg».proof.Proof.Gen.ReferenceIdeal.Run
import proofs.«402710_j13091060318226_2_alg».proof.Proof.Gen.ReferenceIdeal.Read
import proofs.«402710_j13091060318226_2_alg».proof.Proof.Gen.Pre_finite_inputs
import proofs.«402710_j13091060318226_2_alg».proof.Proof.Spec
import proofs.«402710_j13091060318226_2_alg».proof.Proof.PreFacts
import proofs.«402710_j13091060318226_2_alg».proof.Proof.RefValue
import proofs.«402710_j13091060318226_2_alg».proof.Proof.KernelRun
import Idealize.ShloMosaic.Adequacy
import Idealize.ShloMosaic.Init

noncomputable section

namespace Cert.Proof

open Idealize.ShloMosaic Idealize.SL.Sem Cert.InnerCos

/-- The word-level kernel runs and leaves its arguments unchanged. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition the kernel's arguments on each core are as the value proof needs them: finite centers,
    non-negative labels. -/
theorem ok_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Invariant.Ok m c :=
  ⟨fun i => Cert.Pre_finite_inputs.PreFacts.centers_real _ _ _ (hpre c) i,
    fun i => Cert.Pre_finite_inputs.PreFacts.labels_nonneg _ _ _ (hpre c) i⟩

/-- Both programs end with the mean of the rows' clamped cosine distances: the kernel's grouped by tile and core, the
    reference's in one sum. -/
theorem algebraic : Cert.algebraic_KernelIdeal_ReferenceIdeal := by
  intro m ρ m' ρ' hpre hagree
  refine ⟨fun c => fun _ => meanK (Cert.KernelIdeal.Blocks.Xa m c) (Cert.KernelIdeal.Blocks.La m c) (Cert.KernelIdeal.Blocks.Ca m c),
    Cert.KernelIdeal.KernelRun.run m ρ (ok_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  refine (Cert.ReferenceIdeal.RefValue.ref_eq _ _ _ (fun i => (ok_of_pre m hpre c).2 i)).trans ?_
  funext _
  exact (meanK_eq_meanR _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
